-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 27
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S1x8192, .f32⟩
  | .hbm, ⟨26, _⟩ => ⟨S8192x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_cst : Ref sig .tc := ⟨.hbm, 12, rfl⟩
abbrev main_call1_v1 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  reducesTo_S8192x1024_S8192_d1 : S8192x1024.ReducesTo [1] S8192
  h_S_ : 0 < S_.numel
  bcast_S_S8192 : S_.BroadcastsInDim S8192 (![] : Fin 0 → Fin S8192.rank)
  shapeCasts_S8192_S8192x1 : S8192.ShapeCasts S8192x1
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x8192, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S1x8192, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x1024_S8192x1024_S8192x8192_1_1_0_0_n_n_wf : DotDims.WF S8192x1024 S8192x1024 S8192x8192 [1] [1] [0] [0] [] []

variable [Facts₀]

def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf

class Facts : Prop extends Facts₀ where

variable [Facts]
-- ==== Proof.CosineLaw.lean ====
/-
  The scalar mathematics of pairwise cosine similarity on the extended reals.

  For rows `x`, `y` the reference computes `⟨x, y⟩ / (‖x‖ₑ · ‖y‖ₑ)` and the kernel
  `⟨x, y⟩ · (1 / ‖x‖ₑ) · (1 / ‖y‖ₑ)`, where `‖x‖ₑ = max (√(Σ xₖ²)) ε` is the norm clamped below by a
  positive constant `ε`.  A sum of squares of extended reals is never negative (`⊥ · ⊥ = ⊤`), so the clamped
  norm is either a positive real or `⊤`; it is never `0` and never `⊥`.  On that range division by a
  product is the product of the reciprocals: for positive reals this is `1/(pq) = (1/p)(1/q)`, and when
  either norm is `⊤` both sides are `0` (`⊤⁻¹ = 0`).  No finiteness of the inputs is needed.
-/
import Idealize.ShloMosaic.PureOps.Ideal

noncomputable section

namespace Cert.CosineLaw

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `0.0` denotes `0`. -/
theorem ofBits_zero : Ideal.ofBits .f32 0x00000000#32 = 0 := by
  simp [Ideal.ofBits, Ideal.ieee]

/-- The clamp `ε` (the f32 nearest `1e-8`) denotes a positive real. -/
theorem ofBits_eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- A square of an extended real is not negative. -/
theorem square_nonneg (x : EReal) : 0 ≤ x * x := by
  induction x using EReal.rec with
  | bot => simp
  | top => simp
  | coe r => rw [← EReal.coe_mul]; exact_mod_cast _root_.mul_self_nonneg r

/-- The square root of a non-negative extended real is non-negative. -/
theorem sqrt_nonneg {s : EReal} (h : 0 ≤ s) : 0 ≤ Ideal.sqrt s := by
  induction s using EReal.rec with
  | bot => simp at h
  | top => simp
  | coe r =>
    have hr : ¬ r < 0 := not_lt.mpr (by exact_mod_cast h)
    rw [Ideal.sqrt_coe, if_neg hr]; exact_mod_cast Real.sqrt_nonneg r

/-- A clamped norm: a positive real, or `⊤`. -/
theorem clamp_cases {s e : EReal} (hs : 0 ≤ s) (he : ∃ r : ℝ, 0 < r ∧ e = (r : EReal)) :
    max (Ideal.sqrt s) e = ⊤ ∨ ∃ p : ℝ, 0 < p ∧ max (Ideal.sqrt s) e = (p : EReal) := by
  obtain ⟨r, hr, rfl⟩ := he
  have h0 := sqrt_nonneg hs
  generalize Ideal.sqrt s = t at h0 ⊢
  induction t using EReal.rec with
  | bot => simp at h0
  | top => left; simp
  | coe q =>
    right
    exact ⟨max q r, lt_max_of_lt_right hr, (EReal.coe_strictMono.monotone.map_max).symm⟩

/-- Division by a product of clamped norms is the product with their reciprocals. -/
theorem div_mul_eq (d n₁ n₂ one : EReal) (h1 : one = 1)
    (h₁ : n₁ = ⊤ ∨ ∃ p : ℝ, 0 < p ∧ n₁ = (p : EReal)) (h₂ : n₂ = ⊤ ∨ ∃ p : ℝ, 0 < p ∧ n₂ = (p : EReal)) :
    d * Ideal.div one n₁ * Ideal.div one n₂ = Ideal.div d (n₁ * n₂) := by
  subst h1
  have htop : Ideal.div 1 ⊤ = 0 := by simp [Ideal.div]
  have hcoe : ∀ {p : ℝ}, 0 < p → Ideal.div 1 (p : EReal) = ((1 / p : ℝ) : EReal) := fun {p} hp => by
    rw [Ideal.div_coe hp.ne', one_mul]
  rcases h₁ with rfl | ⟨p, hp, rfl⟩ <;> rcases h₂ with rfl | ⟨q, hq, rfl⟩
  · rw [htop, mul_zero, EReal.top_mul_top]; simp [Ideal.div]
  · rw [htop, mul_zero, zero_mul, EReal.top_mul_coe_of_pos hq]; simp [Ideal.div]
  · rw [htop, mul_zero, EReal.coe_mul_top_of_pos hp]; simp [Ideal.div]
  · rw [hcoe hp, hcoe hq, ← EReal.coe_mul p q, Ideal.div_coe (mul_pos hp hq).ne', mul_assoc, ← EReal.coe_mul]
    congr 2; field_simp

end Cert.CosineLaw

end
-- ==== Proof.CosineSpec.lean ====
/-
  Pairwise cosine similarity of the rows of two `[8192, 1024]` arrays, as one function of the arrays, index by
  index, on the extended reals; in the reference's arrangement (`refSim`: the inner product divided by the product of
  the two clamped norms) and in the kernel's (`kerSim`: the inner product times each clamped norm's reciprocal); the
  two arrangements are one function (`kerSim_eq_refSim`), by `CosineLaw.div_mul_eq`, since a clamped norm is a
  positive real or `⊤`.  Also: the host's clamped-norm vector `max (√(Σₖ aᵣₖ²)) ε` and its reciprocal read at a
  row, for any witnesses of the shape facts the printed operations take.
-/
import Idealize.ShloMosaic.PureOps.Ideal
import Idealize.ShloMosaic.PureOps.Ideal.Laws
import Idealize.ShloMosaic.PureOps.Contract
import Idealize.ShloMosaic.Lib.ValueIdx
import Idealize.ShloMosaic.Lib.Pipeline.Value
import proofs.«176622_j56435870269927_1_alg».proof.Proof.CosineLaw

noncomputable section

namespace Cert.CosineSpec

open Idealize.ShloMosaic Idealize.ShloMosaic.ValueIdx

/-- The two arguments' shape, the result's, a vector of row norms, and the scalar shape. -/
abbrev Rows : Shape := ⟨2, ![8192, 1024]⟩
abbrev Sims : Shape := ⟨2, ![8192, 8192]⟩
abbrev Norms : Shape := ⟨1, ![8192]⟩
abbrev Scal : Shape := ⟨0, ![]⟩

/-- The inner product of row `r` of `a` with row `s` of `b`. -/
def dot (a b : Rows.Idx → EReal) (r s : Fin 8192) : EReal := ∑ k : Fin 1024, a (ix2 r k) * b (ix2 s k)

/-- The sum of the squares of row `r`, from the host sum's initial value `0.0`. -/
def sumsq (a : Rows.Idx → EReal) (r : Fin 8192) : EReal :=
  Ideal.ofBits .f32 0x00000000#32 + ∑ k : Fin 1024, a (ix2 r k) * a (ix2 r k)

/-- The norm of row `r`, clamped below by `ε`. -/
def norm (a : Rows.Idx → EReal) (r : Fin 8192) : EReal :=
  max (Ideal.sqrt (sumsq a r)) (Ideal.ofBits .f32 0x322BCC77#32)

/-- The reference's arrangement. -/
def refSim (a b : Rows.Idx → EReal) : Sims.Idx → EReal := fun i =>
  Ideal.div (dot a b (i 0) (i 1)) (norm a (i 0) * norm b (i 1))

/-- The kernel's arrangement. -/
def kerSim (a b : Rows.Idx → EReal) : Sims.Idx → EReal := fun i =>
  dot a b (i 0) (i 1) * Ideal.div (Ideal.ofBits .f32 0x3F800000#32) (norm a (i 0))
    * Ideal.div (Ideal.ofBits .f32 0x3F800000#32) (norm b (i 1))

theorem sumsq_nonneg (a : Rows.Idx → EReal) (r : Fin 8192) : 0 ≤ sumsq a r := by
  unfold sumsq
  rw [CosineLaw.ofBits_zero, zero_add]
  exact Finset.sum_nonneg fun k _ => CosineLaw.square_nonneg _

/-- A clamped norm is `⊤` or a positive real. -/
theorem norm_cases (a : Rows.Idx → EReal) (r : Fin 8192) :
    norm a r = ⊤ ∨ ∃ p : ℝ, 0 < p ∧ norm a r = (p : EReal) :=
  CosineLaw.clamp_cases (sumsq_nonneg a r) CosineLaw.ofBits_eps

/-- The two arrangements are one function. -/
theorem kerSim_eq_refSim (a b : Rows.Idx → EReal) : kerSim a b = refSim a b :=
  funext fun i => CosineLaw.div_mul_eq _ _ _ _ CosineLaw.ofBits_one (norm_cases a (i 0)) (norm_cases b (i 1))

/-! ## The host's norm vector read at a row -/

/-- The host's `Σₖ aᵣₖ²` read at row `j`. -/
theorem sumsq_read (a : FVec Ideal Rows .f32) (hred : Rows.ReducesTo [1] Norms) (hS : 0 < Scal.numel) (j : Norms.Idx) :
    Host.reduceAdd (F := Ideal) (mulf a a) (constant Scal .f32 0x00000000#32) hred hS j = sumsq a (j 0) := by
  simp only [Host.reduceAdd, Ideal.hostReduceAdd_def]
  rw [Ideal.hostReduceAdd_single hred (by decide)]
  unfold sumsq
  refine congrArg (_ + ·) (Finset.sum_congr rfl fun k _ => ?_)
  have e : (by decide : Shape.Reduces Rows [1] Norms).lift j k = ix2 (j 0) k :=
    funext fun d => Fin.ext (by match d with | ⟨0, _⟩ => rfl | ⟨1, _⟩ => rfl)
  exact congrArg (fun z => a z * a z) e

/-- The host's clamped norm vector read at row `j`. -/
theorem norm_read (a : FVec Ideal Rows .f32) (hred : Rows.ReducesTo [1] Norms) (hS : 0 < Scal.numel)
    (hb : Scal.BroadcastsInDim Norms (![] : Fin 0 → Fin Norms.rank)) (j : Norms.Idx) :
    maximumf (F := Ideal) (Host.sqrt (Host.reduceAdd (mulf a a) (constant Scal .f32 0x00000000#32) hred hS))
      (broadcastInDim Norms ![] hb (constant Scal .f32 0x322BCC77#32)) j = norm a (j 0) := by
  show max (Ideal.sqrt (Host.reduceAdd (F := Ideal) (mulf a a) (constant Scal .f32 0x00000000#32) hred hS j)) _ = _
  rw [sumsq_read]
  rfl

/-- The host's reciprocal of the clamped norm vector read at row `j`. -/
theorem rnorm_read (a : FVec Ideal Rows .f32) (hred : Rows.ReducesTo [1] Norms) (hS : 0 < Scal.numel)
    (hb : Scal.BroadcastsInDim Norms (![] : Fin 0 → Fin Norms.rank)) (j : Norms.Idx) :
    Host.divf (F := Ideal) (broadcastInDim Norms ![] hb (constant Scal .f32 0x3F800000#32))
      (maximumf (Host.sqrt (Host.reduceAdd (mulf a a) (constant Scal .f32 0x00000000#32) hred hS))
        (broadcastInDim Norms ![] hb (constant Scal .f32 0x322BCC77#32))) j
      = Ideal.div (Ideal.ofBits .f32 0x3F800000#32) (norm a (j 0)) := by
  show Ideal.div _ (maximumf (F := Ideal) (Host.sqrt (Host.reduceAdd (mulf a a) (constant Scal .f32 0x00000000#32) hred hS))
      (broadcastInDim Norms ![] hb (constant Scal .f32 0x322BCC77#32)) j) = _
  rw [norm_read]
  rfl

end Cert.CosineSpec

end
-- ==== Proof.KernelValue.lean ====
/-
  What the kernel's result array holds after the run, at the extended reals: `CosineSpec.kerSim` of the two
  argument arrays.

  The launch has an 8 × 8 grid; point `(I, J)` reads rows `1024·I …` of the first argument (as bf16, which at the
  extended reals is the argument itself), rows `1024·J …` of the second, the matching 1024 entries of the two
  reciprocal-norm vectors the host computed (a column `[8192, 1]` and a row `[1, 8192]`), and writes block `(I, J)`
  of the `[8192, 8192]` result: entry `(p, q)` of the block is `(Σₖ x_{p,k} · y_{q,k}) · u_p · v_q`.  Read through
  the blocks that is `kerSim` at `(1024·I + p, 1024·J + q)`, and the 64 blocks tile the result.
-/
import proofs.«176622_j56435870269927_1_alg».proof.Proof.Gen.KernelIdeal.Value
import proofs.«176622_j56435870269927_1_alg».proof.Proof.CosineSpec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Cosine

open Cert.KernelIdeal Cert.KernelIdeal.Gen Cert.KernelIdeal.Value
open Idealize.ShloMosaic Idealize.ShloMosaic.TcCoe Idealize.SL.Sem Idealize.ShloMosaic.StableHlo Idealize.ShloMosaic.ValueIdx
open Idealize.ShloMosaic.Pipeline (Dat)
open Cert.CosineSpec (dot norm kerSim)

variable (m : (ℓ : Loc nD τ sig) → Buf (Elt Ideal) ℓ) (ρ : Dev nD → PrngReg)

/-- The two argument arrays. -/
abbrev argA (c : Dev nD) : FVec Ideal S8192x1024 .f32 := m ((c : Thread nD τ).loc main_arg0)
abbrev argB (c : Dev nD) : FVec Ideal S8192x1024 .f32 := m ((c : Thread nD τ).loc main_arg1)

/-! ## The body's product at an index -/

theorem lhs_ax0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_ax1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_ax0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_ax1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at entry `i`: row `i 0` of the left block against row `i 1` of the
    right block (both operands are contracted on their second axis). -/
theorem matmul_read (x0 x1 : FVec Ideal S1024x1024 .bf16) (i : S1024x1024.Idx) :
    matmul dot_S1024x1024_S1024x1024_S1024x1024_1_1_0_0_n_n none x0 x1 (constant S1024x1024 .f32 0x00000000#32) i
      = ∑ k : Fin 1024, x0 (ix2 (i 0) k) * x1 (ix2 (i 1) k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx i ((ValueIdx.contrEquiv1 dot_S1024x1024_S1024x1024_S1024x1024_1_1_0_0_n_n 1024 rfl rfl).symm k) = ix2 (i 0) k := funext fun a => Fin.ext (by
    match a with
    | ⟨0, _⟩ => exact lhs_ax0 _ _
    | ⟨1, _⟩ => exact (lhs_ax1 _ _).trans hk)
  have er : dot_S1024x1024_S1024x1024_S1024x1024_1_1_0_0_n_n.rhsIdx i ((ValueIdx.contrEquiv1 dot_S1024x1024_S1024x1024_S1024x1024_1_1_0_0_n_n 1024 rfl rfl).symm k) = ix2 (i 1) k := funext fun a => Fin.ext (by
    match a with
    | ⟨0, _⟩ => exact rhs_ax0 _ _
    | ⟨1, _⟩ => exact (rhs_ax1 _ _).trans hk)
  exact congrArg₂ (fun u v => x0 u * x1 v) el er

/-- The body's stored value at entry `j` of the block: the product of the two row blocks, scaled by the column
    entry of row `j 0` and the row entry of column `j 1`. -/
theorem pay_read (x0 x1 : Vec Ideal S1024x1024 .bf16) (x2 : Vec Ideal S1024x1 .f32) (x3 : Vec Ideal S1x1024 .f32) (j : S1024x1024.Idx) :
    k0_pay1 x0 x1 x2 x3 j
      = (∑ k : Fin 1024, x0 (ix2 (j 0) k) * x1 (ix2 (j 1) k)) * x2 (ix2 (j 0) (0 : Fin 1)) * x3 (ix2 (0 : Fin 1) (j 1)) := by
  unfold k0_pay1
  simp only [shapeCast_self, mulf_apply]
  rw [matmul_read,
    broadcastTo_apply x2 broadcasts_S1024x1_S1024x1024 j (ix2 (j 0) (0 : Fin 1)) (fun a => by
      match a with
      | ⟨0, _⟩ => show (j 0).val = if (1024 : Nat) = 1 then 0 else (j 0).val; rw [if_neg (by decide)]
      | ⟨1, _⟩ => show 0 = if (1 : Nat) = 1 then 0 else (j 1).val; rw [if_pos rfl]),
    broadcastTo_apply x3 broadcasts_S1x1024_S1024x1024 j (ix2 (0 : Fin 1) (j 1)) (fun a => by
      match a with
      | ⟨0, _⟩ => show 0 = if (1 : Nat) = 1 then 0 else (j 0).val; rw [if_pos rfl]
      | ⟨1, _⟩ => show (j 1).val = if (1024 : Nat) = 1 then 0 else (j 1).val; rw [if_neg (by decide)])]

/-! ## The windows' arrays as the region finds them -/

/-- Window 0's array is the first argument (its change of format is the identity here). -/
theorem V_v0 (c : Dev nD) : (V m c main_v0 : S8192x1024.Idx → EReal) = argA m c := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- Window 1's array is the second argument. -/
theorem V_v1 (c : Dev nD) : (V m c main_v1 : S8192x1024.Idx → EReal) = argB m c := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- Window 2's array: the reciprocals of the first argument's clamped row norms, as a column. -/
theorem V_v10 (c : Dev nD) : (V m c main_v10 : S8192x1.Idx → EReal) =
    shapeCast S8192x1 (Host.divf (F := Ideal) (broadcastInDim S8192 ![] bcast_S_S8192 (constant S_ .f32 0x3F800000#32))
      (maximumf (Host.sqrt (Host.reduceAdd (mulf (argA m c) (argA m c)) (constant S_ .f32 0x00000000#32) reducesTo_S8192x1024_S8192_d1 h_S_))
        (broadcastInDim S8192 ![] bcast_S_S8192 (constant S_ .f32 0x322BCC77#32)))) shapeCasts_S8192_S8192x1 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- Window 3's array: the reciprocals of the second argument's clamped row norms, as a row. -/
theorem V_v13 (c : Dev nD) : (V m c main_v13 : S1x8192.Idx → EReal) =
    shapeCast S1x8192 (Host.divf (F := Ideal) (broadcastInDim S8192 ![] bcast_S_S8192 (constant S_ .f32 0x3F800000#32))
      (maximumf (Host.sqrt (Host.reduceAdd (mulf (argB m c) (argB m c)) (constant S_ .f32 0x00000000#32) reducesTo_S8192x1024_S8192_d1 h_S_))
        (broadcastInDim S8192 ![] bcast_S_S8192 (constant S_ .f32 0x322BCC77#32)))) shapeCasts_S8192_S1x8192 := by
  dsimp only [Gen.V]
  simp only [Gen.hostOps0, Gen.hostOps0_1, Gen.hostOps0_2, Gen.hostOps0_3, Gen.hostOps0_4, List.flatten_cons, List.flatten_nil, List.append_nil, List.cons_append, List.nil_append]
  after_results
  rfl

/-- The column at row `r` is the reciprocal of the first argument's clamped norm of row `r`. -/
theorem V_v10_apply (c : Dev nD) (k : S8192x1.Idx) :
    (V m c main_v10 : S8192x1.Idx → EReal) k = Ideal.div (Ideal.ofBits .f32 0x3F800000#32) (norm (argA m c) (k 0)) := by
  rw [V_v10, shapeCast_apply _ shapeCasts_S8192_S8192x1 k (ix1 (k 0)) (by
    rw [Shape.rowMajor_val_one, Shape.rowMajor_val_two]
    have h1 : (k 1).val < 1 := (k 1).isLt
    show (k 0).val = (k 0).val * 1 + (k 1).val
    omega)]
  exact CosineSpec.rnorm_read (argA m c) reducesTo_S8192x1024_S8192_d1 h_S_ bcast_S_S8192 (ix1 (k 0))

/-- The row at column `s` is the reciprocal of the second argument's clamped norm of row `s`. -/
theorem V_v13_apply (c : Dev nD) (k : S1x8192.Idx) :
    (V m c main_v13 : S1x8192.Idx → EReal) k = Ideal.div (Ideal.ofBits .f32 0x3F800000#32) (norm (argB m c) (k 1)) := by
  rw [V_v13, shapeCast_apply _ shapeCasts_S8192_S1x8192 k (ix1 (k 1)) (by
    rw [Shape.rowMajor_val_one, Shape.rowMajor_val_two]
    have h0 : (k 0).val < 1 := (k 0).isLt
    show (k 1).val = (k 0).val * 8192 + (k 1).val
    omega)]
  exact CosineSpec.rnorm_read (argB m c) reducesTo_S8192x1024_S8192_d1 h_S_ bcast_S_S8192 (ix1 (k 1))

/-! ## The index maps over the grid -/

/-- The four input windows move with the output window: windows 0 and 2 follow its row-block index, windows 1
    and 3 its column-block index, and the other index of each is `0`; the output's block indices are below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every block of the result is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The input blocks as entries of the arrays -/

/-- The four input blocks at point `t`, at their literal types. -/
abbrev blk0 (c : Dev nD) (t : Fin cfg0.N) : Vec Ideal S1024x1024 .bf16 := iblk m c 0 t
abbrev blk1 (c : Dev nD) (t : Fin cfg0.N) : Vec Ideal S1024x1024 .bf16 := iblk m c 1 t
abbrev blk2 (c : Dev nD) (t : Fin cfg0.N) : Vec Ideal S1024x1 .f32 := iblk m c 2 t
abbrev blk3 (c : Dev nD) (t : Fin cfg0.N) : Vec Ideal S1x1024 .f32 := iblk m c 3 t

theorem iblk0_apply (c : Dev nD) (t : Fin cfg0.N) (x : S1024x1024.Idx) (k : S8192x1024.Idx)
    (hk0 : (k 0).val = win0_0.index t (0 : Fin 2) * 1024 + (x 0).val) (hk1 : (k 1).val = win0_0.index t (1 : Fin 2) * 1024 + (x 1).val) :
    blk0 m c t x = (V m c main_v0 : S8192x1024.Idx → EReal) k := by
  unfold blk0 iblk
  rw [View.read_apply]
  show (V m c main_v0 : S8192x1024.Idx → EReal) _ = _
  congr 1
  funext a
  apply Fin.ext
  match a with
  | ⟨0, _⟩ => show win0_0.index t (0 : Fin 2) * 1024 + 1 * (x 0).val = (k 0).val; omega
  | ⟨1, _⟩ => show win0_0.index t (1 : Fin 2) * 1024 + 1 * (x 1).val = (k 1).val; omega

theorem iblk1_apply (c : Dev nD) (t : Fin cfg0.N) (x : S1024x1024.Idx) (k : S8192x1024.Idx)
    (hk0 : (k 0).val = win0_1.index t (0 : Fin 2) * 1024 + (x 0).val) (hk1 : (k 1).val = win0_1.index t (1 : Fin 2) * 1024 + (x 1).val) :
    blk1 m c t x = (V m c main_v1 : S8192x1024.Idx → EReal) k := by
  unfold blk1 iblk
  rw [View.read_apply]
  show (V m c main_v1 : S8192x1024.Idx → EReal) _ = _
  congr 1
  funext a
  apply Fin.ext
  match a with
  | ⟨0, _⟩ => show win0_1.index t (0 : Fin 2) * 1024 + 1 * (x 0).val = (k 0).val; omega
  | ⟨1, _⟩ => show win0_1.index t (1 : Fin 2) * 1024 + 1 * (x 1).val = (k 1).val; omega

theorem iblk2_apply (c : Dev nD) (t : Fin cfg0.N) (x : S1024x1.Idx) (k : S8192x1.Idx)
    (hk0 : (k 0).val = win0_2.index t (0 : Fin 2) * 1024 + (x 0).val) (hk1 : (k 1).val = win0_2.index t (1 : Fin 2) * 1 + (x 1).val) :
    blk2 m c t x = (V m c main_v10 : S8192x1.Idx → EReal) k := by
  unfold blk2 iblk
  rw [View.read_apply]
  show (V m c main_v10 : S8192x1.Idx → EReal) _ = _
  congr 1
  funext a
  apply Fin.ext
  match a with
  | ⟨0, _⟩ => show win0_2.index t (0 : Fin 2) * 1024 + 1 * (x 0).val = (k 0).val; omega
  | ⟨1, _⟩ => show win0_2.index t (1 : Fin 2) * 1 + 1 * (x 1).val = (k 1).val; omega

theorem iblk3_apply (c : Dev nD) (t : Fin cfg0.N) (x : S1x1024.Idx) (k : S1x8192.Idx)
    (hk0 : (k 0).val = win0_3.index t (0 : Fin 2) * 1 + (x 0).val) (hk1 : (k 1).val = win0_3.index t (1 : Fin 2) * 1024 + (x 1).val) :
    blk3 m c t x = (V m c main_v13 : S1x8192.Idx → EReal) k := by
  unfold blk3 iblk
  rw [View.read_apply]
  show (V m c main_v13 : S1x8192.Idx → EReal) _ = _
  congr 1
  funext a
  apply Fin.ext
  match a with
  | ⟨0, _⟩ => show win0_3.index t (0 : Fin 2) * 1 + 1 * (x 0).val = (k 0).val; omega
  | ⟨1, _⟩ => show win0_3.index t (1 : Fin 2) * 1024 + 1 * (x 1).val = (k 1).val; omega

/-! ## What a point writes back, the cover, the array after the run -/

theorem hz : (![0, 0] : Fin 2 → Nat) = fun _ => 0 := funext fun a => by fin_cases a <;> rfl

/-- Point `t` writes back block `t` of `kerSim` of the two arguments. -/
theorem flushed_eq (c : Dev nD) (t : Fin cfg0.N) :
    (dats m 0 c).flushed 4 t = ((cfg0.win 4).blk t).view.read (Elt Ideal) (kerSim (argA m c) (argB m c)) := by
  rw [flushed4]
  unfold out0_4
  rw [View.canon_unit_zero hz]
  simp only [View.ld_unit_zero (S := S1024x1024) hz, View.ld_unit_zero (S := S1024x1) hz, View.ld_unit_zero (S := S1x1024) hz]
  obtain ⟨e00, e01, e10, e11, e20, e21, e30, e31, b0, b1⟩ := idx_facts t
  refine funext fun (j : S1024x1024.Idx) => ?_
  show k0_pay1 (blk0 m c t) (blk1 m c t) (blk2 m c t) (blk3 m c t) j
    = kerSim (argA m c) (argB m c) (((cfg0.win 4).blk t).view.emb j)
  refine (pay_read (blk0 m c t) (blk1 m c t) (blk2 m c t) (blk3 m c t) j).trans ?_
  have hj0 : (j 0).val < 1024 := (j 0).isLt
  have hj1 : (j 1).val < 1024 := (j 1).isLt
  have r0 : ((((cfg0.win 4).blk t).view.emb j) 0).val = win0_4.index t (0 : Fin 2) * 1024 + (j 0).val := by
    show win0_4.index t (0 : Fin 2) * 1024 + 1 * (j 0).val = _; omega
  have r1 : ((((cfg0.win 4).blk t).view.emb j) 1).val = win0_4.index t (1 : Fin 2) * 1024 + (j 1).val := by
    show win0_4.index t (1 : Fin 2) * 1024 + 1 * (j 1).val = _; omega
  obtain ⟨i, hi⟩ : ∃ i : S8192x8192.Idx, i = ((cfg0.win 4).blk t).view.emb j := ⟨_, rfl⟩
  rw [← hi] at r0 r1 ⊢
  have s : (∑ k : Fin 1024, blk0 m c t (ix2 (j 0) k) * blk1 m c t (ix2 (j 1) k))
      = dot (argA m c) (argB m c) (i 0) (i 1) := by
    unfold dot
    refine Finset.sum_congr rfl fun k _ => ?_
    rw [iblk0_apply m c t (ix2 (j 0) k) (ix2 (i 0) k)
        (by show (i 0).val = win0_0.index t (0 : Fin 2) * 1024 + (j 0).val; rw [r0, e00])
        (by show k.val = win0_0.index t (1 : Fin 2) * 1024 + k.val; rw [e01]; omega),
      iblk1_apply m c t (ix2 (j 1) k) (ix2 (i 1) k)
        (by show (i 1).val = win0_1.index t (0 : Fin 2) * 1024 + (j 1).val; rw [r1, e10])
        (by show k.val = win0_1.index t (1 : Fin 2) * 1024 + k.val; rw [e11]; omega),
      V_v0, V_v1]
  have u : blk2 m c t (ix2 (j 0) (0 : Fin 1))
      = Ideal.div (Ideal.ofBits .f32 0x3F800000#32) (norm (argA m c) (i 0)) :=
    (iblk2_apply m c t (ix2 (j 0) (0 : Fin 1)) (ix2 (i 0) (0 : Fin 1))
      (by show (i 0).val = win0_2.index t (0 : Fin 2) * 1024 + (j 0).val; rw [r0, e20])
      (by show (0 : Nat) = win0_2.index t (1 : Fin 2) * 1 + 0; rw [e21])).trans (V_v10_apply m c _)
  have v : blk3 m c t (ix2 (0 : Fin 1) (j 1))
      = Ideal.div (Ideal.ofBits .f32 0x3F800000#32) (norm (argB m c) (i 1)) :=
    (iblk3_apply m c t (ix2 (0 : Fin 1) (j 1)) (ix2 (0 : Fin 1) (i 1))
      (by show (0 : Nat) = win0_3.index t (0 : Fin 2) * 1 + 0; rw [e30])
      (by show (i 1).val = win0_3.index t (1 : Fin 2) * 1024 + (j 1).val; rw [r1, e31])).trans (V_v13_apply m c _)
  exact congrArg₂ (· * ·) (congrArg₂ (· * ·) s u) v

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v14).slice (win0_4.rect t)).set ↔ _
  rw [View.set_slice_whole, Rect.mem_set_unit]
  exact Iff.rfl

/-- The 64 blocks tile the result: entry `(n, m)` is in the block of the point with block indices `(n / 1024, m / 1024)`. -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- The result array after the run is `kerSim` of the two arguments. -/
theorem final (c : Dev nD) : (dats m 0 c).arrAt 4 cfg0.N = kerSim (argA m c) (argB m c) :=
  (dats m 0 c).arrAt_eq_of_cover 4 (kerSim (argA m c) (argB m c)) (fun t _ => flushed_eq m c t) cover

/-- The run, read: the result at `kerSim` of the arguments, the arguments unchanged. -/
theorem run : θ_run defs (onTc (τ := τ) (main (F := Ideal))) ⟨m, fun _ => 0, ρ⟩ fun r => ∀ c : Dev nD,
      r.2.mem ((c : Thread nD τ).loc main_v14) = kerSim (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Cosine

end
-- ==== Proof.RefValue.lean ====
/-
  The reference's result, one operation at a time, is `CosineSpec.refSim` of its two arguments: the host's
  `dot_general` at `(n, m)` is the inner product of row `n` of the first argument with row `m` of the second, the
  two broadcast norm vectors read at `(n, m)` are the clamped norms of those rows, and the quotient is `Ideal.div`.
-/
import proofs.«176622_j56435870269927_1_alg».proof.Proof.Gen.ReferenceIdeal.Read
import proofs.«176622_j56435870269927_1_alg».proof.Proof.CosineSpec

noncomputable section

namespace Cert.ReferenceIdeal.Cosine

open Cert.ReferenceIdeal Cert.ReferenceIdeal.Gen Cert.ReferenceIdeal.Read
open Idealize.ShloMosaic Idealize.ShloMosaic.TcCoe Idealize.ShloMosaic.ValueIdx
open Cert.CosineSpec (dot norm refSim)

/-- The left operand's index at contraction coordinate `k` is `(i 0, k)`. -/
theorem lidx_eq (i : S8192x8192.Idx) (k : Fin 1024) : lidx_main_v0 i k = ix2 (i 0) k :=
  funext fun a => by match a with | ⟨0, _⟩ => rfl | ⟨1, _⟩ => rfl

/-- The right operand's index at contraction coordinate `k` is `(i 1, k)`. -/
theorem ridx_eq (i : S8192x8192.Idx) (k : Fin 1024) : ridx_main_v0 i k = ix2 (i 1) k :=
  funext fun a => by match a with | ⟨0, _⟩ => rfl | ⟨1, _⟩ => rfl

/-- The reference's result is `refSim` of the arguments. -/
theorem ref_eq (a b : FVec Ideal S8192x1024 .f32) : val_main_v12 (F := Ideal) a b = refSim a b := by
  funext i
  rw [val_main_v12_apply, val_main_v0_apply, val_main_v11_apply, val_main_v9_apply, val_main_v7_apply,
    val_main_v10_apply, val_main_v8_apply]
  have h3 : val_main_v3 (F := Ideal) a (idx_main_v7 (idx_main_v9 i)) = norm a (i 0) :=
    CosineSpec.norm_read a reducesTo_S8192x1024_S8192_d1 h_S_ bcast_S_S8192 (idx_main_v7 (idx_main_v9 i))
  have h6 : val_main_v6 (F := Ideal) b (idx_main_v8 (idx_main_v10 i)) = norm b (i 1) :=
    CosineSpec.norm_read b reducesTo_S8192x1024_S8192_d1 h_S_ bcast_S_S8192 (idx_main_v8 (idx_main_v10 i))
  rw [h3, h6]
  simp only [lidx_eq, ridx_eq]
  rfl

end Cert.ReferenceIdeal.Cosine

end
-- ==== Proof.lean ====
/-
  Pairwise cosine similarity `[8192, 1024] × [8192, 1024] → [8192, 8192]`: the kernel against its jnp reference,
  over the extended reals.

  The reference computes, at `(n, m)`, the inner product of row `n` of the first argument with row `m` of the
  second, divided by the product of the two rows' norms, each norm clamped below by `ε` (the f32 nearest 1e-8).
  The kernel multiplies the same inner product (a bf16 matrix product on 1024 × 1024 tiles; a change of float
  format is the identity on the extended reals) by the reciprocals of the two clamped norms, which the host
  computes before the launch.  A sum of squares is never negative on the extended reals, so a clamped norm is a
  positive real or `⊤`, and on that range `d / (p · q) = d · (1/p) · (1/q)` (`CosineLaw.div_mul_eq`): the two
  programs compute one function of their arguments, `CosineSpec.kerSim = CosineSpec.refSim`.  The precondition
  (finite inputs) is not needed for it.

  The three frames are the generated ones (the reference's is its run with the result dropped); the ideal pass
  rewrote nothing, so `preserves` is `True`.
-/
import proofs.«176622_j56435870269927_1_alg».proof.Defs
import proofs.«176622_j56435870269927_1_alg».proof.Proof.Gen.Kernel
import proofs.«176622_j56435870269927_1_alg».proof.Proof.Gen.Kernel.Skeleton
import proofs.«176622_j56435870269927_1_alg».proof.Proof.Gen.Kernel.Launch
import proofs.«176622_j56435870269927_1_alg».proof.Proof.Gen.Kernel.Points
import proofs.«176622_j56435870269927_1_alg».proof.Proof.Gen.Kernel.Frame
import proofs.«176622_j56435870269927_1_alg».proof.Proof.Gen.KernelIdeal
import proofs.«176622_j56435870269927_1_alg».proof.Proof.Gen.KernelIdeal.Skeleton
import proofs.«176622_j56435870269927_1_alg».proof.Proof.Gen.KernelIdeal.Launch
import proofs.«176622_j56435870269927_1_alg».proof.Proof.Gen.KernelIdeal.Points
import proofs.«176622_j56435870269927_1_alg».proof.Proof.Gen.KernelIdeal.Frame
import proofs.«176622_j56435870269927_1_alg».proof.Proof.Gen.ReferenceIdeal
import proofs.«176622_j56435870269927_1_alg».proof.Proof.Gen.KernelIdeal.Value
import proofs.«176622_j56435870269927_1_alg».proof.Proof.Gen.ReferenceIdeal.Run
import proofs.«176622_j56435870269927_1_alg».proof.Proof.Gen.ReferenceIdeal.Read
import proofs.«176622_j56435870269927_1_alg».proof.Proof.Gen.Pre_finite_inputs
import proofs.«176622_j56435870269927_1_alg».proof.Proof.CosineSpec
import proofs.«176622_j56435870269927_1_alg».proof.Proof.KernelValue
import proofs.«176622_j56435870269927_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `kerSim` of its arguments, the reference's at `refSim` of arguments that
    agree with them; the two are one function. -/
theorem algebraic : Cert.algebraic_KernelIdeal_ReferenceIdeal := by
  intro m ρ m' ρ' _ hagree
  refine ⟨fun c => Cert.CosineSpec.kerSim (Cert.KernelIdeal.Cosine.argA m c) (Cert.KernelIdeal.Cosine.argB m c),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Cosine.ref_eq, (hagree c).1, (hagree c).2]
  exact (Cert.CosineSpec.kerSim_eq_refSim _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
